-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel

variable [Facts]

def fn {F : FTy → Type} [FloatOps F] (main_arg0 : FVec F S2048x64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  main_v3
-- ==== Kernel.lean ====
abbrev S2048x64 : Shape := ⟨2, ![2048, 64]⟩
abbrev S2048x2048 : Shape := ⟨2, ![2048, 2048]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 2
  | .vmem => 6
  | .smem => 0
  | _ => 0

abbrev bufTy : (tb : Table) → Fin (tcTables nBuf tb) → BufTy
  | .hbm, ⟨0, _⟩ => ⟨S2048x64, .f32⟩
  | .hbm, ⟨1, _⟩ => ⟨S2048x2048, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x256, .f32⟩
  | .local _ .vmem, ⟨5, _⟩ => ⟨S256x256, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S256x64_S256x64_0_0 : ∀ a, (![0, 0] : Fin 2 → Nat) a + S256x64.size a ≤ S256x64.size a
  h_S256x64 : 0 < S256x64.numel
  reduces_S256x64_S256 : S256x64.Reduces [1] S256
  shapeCasts_S256_S256x1 : S256.ShapeCasts S256x1
  transposes_S256x1_p1_0_S1x256 : S256x1.Transposes [1, 0] S1x256
  broadcasts_S256x1_S256x256 : S256x1.Broadcasts S256x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x64_S256x64_S256x256_1_1_0_0_n_n_wf : DotDims.WF S256x64 S256x64 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S2048x64.size a
  hwx0_0 : ∀ i : grid0.Coords, EltTy.bits .f32 = 32 ∨ (Rect.block (s := S2048x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S2048x64.size a
  hwx0_1 : ∀ i : grid0.Coords, EltTy.bits .f32 = 32 ∨ (Rect.block (s := S2048x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S2048x2048.size a
  hwx0_2 : ∀ i : grid0.Coords, EltTy.bits .f32 = 32 ∨ (Rect.block (s := S2048x2048) S256x256.size (cc0_transform_2 i) (hinb0_2 i)).WholeWords (EltTy.packing .f32)

variable [Facts₀]

def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x64 : Shape := ⟨2, ![2048, 64]⟩
abbrev S2048x1x64 : Shape := ⟨3, ![2048, 1, 64]⟩
abbrev S1x2048x64 : Shape := ⟨3, ![1, 2048, 64]⟩
abbrev S2048x2048x64 : Shape := ⟨3, ![2048, 2048, 64]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x1x64, .f32⟩
  | .hbm, ⟨2, _⟩ => ⟨S1x2048x64, .f32⟩
  | .hbm, ⟨3, _⟩ => ⟨S2048x2048x64, .f32⟩
  | .hbm, ⟨4, _⟩ => ⟨S2048x2048x64, .f32⟩
  | .hbm, ⟨5, _⟩ => ⟨S2048x2048x64, .f32⟩
  | .hbm, ⟨6, _⟩ => ⟨S2048x2048x64, .f32⟩
  | .hbm, ⟨7, _⟩ => ⟨S_, .f32⟩
  | .hbm, ⟨8, _⟩ => ⟨S2048x2048, .f32⟩
  | .hbm, ⟨9, _⟩ => ⟨S2048x2048, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  bcast_S2048x64_S2048x1x64_0_2 : S2048x64.BroadcastsInDim S2048x1x64 (![0, 2] : Fin 2 → Fin S2048x1x64.rank)
  bcast_S2048x64_S1x2048x64_1_2 : S2048x64.BroadcastsInDim S1x2048x64 (![1, 2] : Fin 2 → Fin S1x2048x64.rank)
  bcast_S2048x1x64_S2048x2048x64_0_1_2 : S2048x1x64.BroadcastsInDim S2048x2048x64 (![0, 1, 2] : Fin 3 → Fin S2048x2048x64.rank)
  bcast_S1x2048x64_S2048x2048x64_0_1_2 : S1x2048x64.BroadcastsInDim S2048x2048x64 (![0, 1, 2] : Fin 3 → Fin S2048x2048x64.rank)
  reducesTo_S2048x2048x64_S2048x2048_d2 : S2048x2048x64.ReducesTo [2] S2048x2048
  h_S_ : 0 < S_.numel

variable [Facts₀]

class Facts : Prop extends Facts₀ where

variable [Facts]
-- ==== Proof.LibSharedInputFrame.lean ====
/-
  The frame run of a one-region pipeline whose INPUT windows may read one array.

  A kernel handed the same array through several input windows (here: the rows of a matrix as the
  left block and again as the right block of a pairwise product) cannot hold that array at the full
  share once per window: the full share of the buffer behind the array is dealt among the windows
  on it, each window reading at its own positive share. The statement below is the frame run for
  such a kernel when it keeps nothing of its own between grid points: no semaphore, no scratch the
  proof names, no use of the random-number register. Its region invariant is then just the core's
  scoped buffers that are no staging buffer, at some contents each.

  What the caller says about the sharing is one entailment, `hsplit`: the distinct buffers behind
  the windows' arrays, each whole at the full share at the region-entry contents, yield the proof
  data's arrays at entry, every window at its share. The conclusion is the usual frame post: every
  window's array ends at what the write-backs make of it (an input: its entry contents), and every
  unscoped buffer no window stages ends as the region found it.
-/
import Idealize.ShloMosaic.Lib.Pipeline.Frame

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs))
  (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

include hinj hw in
/-- The frame run when input windows may share an array: the layout facts taken one by one (the
    staging cells distinct, the windows laid out but for the arrays' distinctness, blocks non-empty,
    arrays and staging memrefs whole), the body obligation, nothing owed, @main up to the region,
    the entry split `hsplit` of the arrays' buffers among the windows, and the invariant the scoped
    rest at every point. Every weakly fair execution terminates in a state where each window's array
    holds what the proof data compute for it and every other unscoped buffer what the region found. -/
theorem θ_run_frame_sharedIn
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro H; isplitr
      · iempintro
      · iexact H)
    (hin := fun c => by
      rw [hΦ]; iintro ⟨-, H⟩; iexact H)
    (hout := fun c => by
      rw [hΦ]; iintro H; isplitr
      · iempintro
      · iexact H)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Idealize.ShloMosaic.Pipeline

end
-- ==== Proof.KernelFrame.lean ====
/-
  The frame of the pairwise-distance kernel: it runs to the end, faults nowhere, and leaves the
  matrix of points unchanged.

  The kernel is one pipelined region over an 8 × 8 grid. At grid point (i, j) it is handed rows
  256·i … 256·i+255 of the points as its left block and rows 256·j … 256·j+255 of the SAME matrix
  as its right block, and writes the 256 × 256 tile (i, j) of the distance matrix. Both input
  windows read one array, so the full share of that array is dealt between them: the left window
  reads at the left half of the full share and the right window at the right half; the output
  array is held outright. Nothing is written into the points, and each input's staging buffer
  holds its block of rows at every grid point, whether the pipeline fetched it there or kept it
  from the point before (the left block changes only every eighth point).

  What the body leaves in the output's staging buffer is its single whole-tile store; it is
  stated here as a function of the two row blocks, for the value claim to read.
-/
import proofs.«148635_j46308337386062_1_alg».proof.Proof.Gen.Kernel.Launch
import proofs.«148635_j46308337386062_1_alg».proof.Proof.Gen.Kernel.Skeleton
import proofs.«148635_j46308337386062_1_alg».proof.Proof.Gen.Kernel.Points
import proofs.«148635_j46308337386062_1_alg».proof.Proof.LibSharedInputFrame
import Idealize.ShloMosaic.Lib.Pipeline.FrameBody
import Idealize.ShloMosaic.Lib.Ring
import Idealize.ShloMosaic.Lib.Tactic

set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- The TensorCore's buffers when the region is entered: as launched, since the program is the region alone. -/
abbrev V (c : Dev nD) (b : Ref sig .tc) : Buf (Elt F) ((c : Thread nD τ).loc b) := m ((c : Thread nD τ).loc b)

theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at grid point `t`, read off its array as the region finds it: for the two
    input windows, 256 rows of the points. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output tile's buffer -/

abbrev rIn : Rect S256x64 := Rect.unit (s := S256x64) ![0, 0] S256x64.size inb_S256x64_S256x64_0_0
abbrev rOut : Rect S256x256 := Rect.unit (s := S256x256) ![0, 0] S256x256.size inb_S256x256_S256x256_0_0

/-- The tile the body stores, from the left and the right block of rows: its one whole-tile store. -/
def tile (x0 x1 : Vec F S256x64 .f32) : Vec F S256x256 .f32 :=
  View.canon [⟨rOut, k0_pay1 (View.ld x0 rIn) (View.ld x1 rIn)⟩]

/-- That store covers the whole buffer. -/
theorem tile_cover (p0 : Vec F S256x256 .f32) (y : S256x256.Idx) :
    ∃ pc ∈ ([⟨rOut, p0⟩] : List (View.Piece (Elt F) S256x256 .f32)), y ∈ pc.1.set :=
  View.cover_of_tiled [⟨rOut, p0⟩] S256x256.size (by rfl) y

/-! ## The body's triple -/

set_option maxHeartbeats 1000000 in
/-- On whole staging memrefs — the inputs' holding `x0` and `x1`, the output's anything — the body
    runs to a state where the inputs' hold what they held and the output's holds `tile x0 x1`. -/
theorem sound_kernel (c : Dev nD) (E : Set ℕ) (i : grid0.Coords)
    (arg2 : Memref sig .tc .vmem S256x64 .f32) (harg2 : arg2.IsWhole)
    (arg3 : Memref sig .tc .vmem S256x64 .f32) (harg3 : arg3.IsWhole)
    (arg4 : Memref sig .tc .vmem S256x256 .f32) (harg4 : arg4.IsWhole)
    (x0 x1 : Vec F S256x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__cdist_kernel i arg2 harg2 arg3 harg3 arg4 harg4) K := by
  simp only [cc0__cdist_kernel_eq_skeleton]; unfold cc0__cdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr
    · ipureintro; rfl
    · iexact H0
  isplitl [H1]
  · iexists f1; isplitr
    · ipureintro; rfl
    · iexact H1
  iexists _; isplitr
  swap
  · iexact H2
  ipureintro
  exact View.read_writes_eq_canon _ _ _ (tile_cover _)

/-! ## The proof data -/

/-- Per core: the arrays as the region finds them; after the body each input's buffer at its block
    of rows and the output's at the tile of the two blocks; between points only the core's scoped
    buffers that are no staging buffer; the points read at the two halves of the full share. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => tile (blk m c 0 t) (blk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_left (c : Dev nD) (t : Fin cfg0.N) : (dats m 0 c).after 0 t = blk m c 0 t := by dsimp only [dats]
theorem after_right (c : Dev nD) (t : Fin cfg0.N) : (dats m 0 c).after 1 t = blk m c 1 t := by dsimp only [dats]
theorem after_tile (c : Dev nD) (t : Fin cfg0.N) : (dats m 0 c).after 2 t = tile (blk m c 0 t) (blk m c 1 t) := by dsimp only [dats]

/-- The left window's buffer holds its block of rows at every point, fetched there or kept. -/
theorem before_left (c : Dev nD) (t : Fin cfg0.N) (d) : (dats m 0 c).before 0 t d = blk m c 0 t :=
  ((dats m 0 c).before_in_eq_fetched 0 rfl (fun _ => rfl) (fun _ _ _ => rfl)
    (fun t => by rw [after_left]; unfold Dat.blockOf blk; rw [A_eq]; try rfl) t d).trans
    (by unfold Dat.fetched Dat.blockOf blk; rw [A_eq]; try rfl)

/-- So does the right window's. -/
theorem before_right (c : Dev nD) (t : Fin cfg0.N) (d) : (dats m 0 c).before 1 t d = blk m c 1 t :=
  ((dats m 0 c).before_in_eq_fetched 1 rfl (fun _ => rfl) (fun _ _ _ => rfl)
    (fun t => by rw [after_right]; unfold Dat.blockOf blk; rw [A_eq]; try rfl) t d).trans
    (by unfold Dat.fetched Dat.blockOf blk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any grid point the inputs' buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_left, before_right]
  rw [show (dats m 0 c).Φ t.succ = (dats m 0 c).Φ t.castSucc from rfl,
    show (dats m 0 c).owesAt () t.succ = (dats m 0 c).owesAt () t.castSucc from rfl,
    after_left, after_right, after_tile]
  iintro ⟨HΦ, Ho, ⟨%d0, H0⟩, ⟨%d1, H1⟩, ⟨%d2, H2⟩⟩
  iapply (sound_kernel c Set.univ (grid0.coords t) _ _ _ _ _ _ (blk m c 0 t) (blk m c 1 t) _)
  isplitl [H0]
  · iexact H0
  isplitl [H1]
  · iexact H1
  isplitl [H2]
  · iexists _; iexact H2
  iintro ⟨H0, H1, H2⟩
  isplitl [HΦ]
  · iexact HΦ
  isplitl [Ho]
  · iexact Ho
  isplitl [H0]
  · iexact H0
  isplitl [H1]
  · iexact H1
  iexact H2

theorem body_obligation (c : Dev nD) : BodyObligation (dats (F := F) m 0 c) (defs₀ (F := F)) Variants.none () Set.univ := fun t => by
  rw [bigSep_W0, bigSep_W0]
  exact sound_body m c t

/-! ## Dealing the points between the two input windows -/

/-- At entry the buffer of the points, whole at the full share, is the left window's array at the
    left half share and the right window's at the right half; the output's buffer is its array. -/
theorem entry_split (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_arg0, main_v0] (by decide) (by decide), bigSep_W0]
  rw [(arr_whole0 0).set_eq_univ, (arr_whole0 2).set_eq_univ]
  simp only [bigSepL_cons_cons, bigSepL_singleton]
  show iprop((((c.tc : Thread nD τ).loc main_arg0) ↦{fullShare} V m c main_arg0) ∗ (((c.tc : Thread nD τ).loc main_v0) ↦{fullShare} V m c main_v0)) ⊢ _
  iintro ⟨Ha, Hv⟩
  ihave Hs := (pointsTo_share (PosShare.mem_left_op_right fullShare)).1 $$ Ha
  icases Hs with ⟨Hl, Hr⟩
  isplitl [Hl]
  · iexact Hl
  isplitl [Hr]
  · iexact Hr
  iexact Hv

/-! ## The run and the frame -/

set_option backward.isDefEq.respectTransparency.types false in
/-- Every weakly fair execution terminates; each window's array then holds what the write-backs
    make of it, the points their entry contents. -/
theorem run_main : θ_run defs (onTc (τ := τ) (main (F := F))) (s₀ m ρ) (Pipeline.FramePost cfgs (dats m) 0 (V m)) :=
  Pipeline.θ_run_frame_sharedIn cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := entry_split m) (hΦ := fun _ _ => rfl)

/-- The frame: the points end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

end Cert.Kernel.Dist

end
-- ==== Proof.KernelIdealFrame.lean ====
/-
  The frame of the pairwise-distance kernel: it runs to the end, faults nowhere, and leaves the
  matrix of points unchanged.

  The kernel is one pipelined region over an 8 × 8 grid. At grid point (i, j) it is handed rows
  256·i … 256·i+255 of the points as its left block and rows 256·j … 256·j+255 of the SAME matrix
  as its right block, and writes the 256 × 256 tile (i, j) of the distance matrix. Both input
  windows read one array, so the full share of that array is dealt between them: the left window
  reads at the left half of the full share and the right window at the right half; the output
  array is held outright. Nothing is written into the points, and each input's staging buffer
  holds its block of rows at every grid point, whether the pipeline fetched it there or kept it
  from the point before (the left block changes only every eighth point).

  What the body leaves in the output's staging buffer is its single whole-tile store; it is
  stated here as a function of the two row blocks, for the value claim to read.
-/
import proofs.«148635_j46308337386062_1_alg».proof.Proof.Gen.KernelIdeal.Launch
import proofs.«148635_j46308337386062_1_alg».proof.Proof.Gen.KernelIdeal.Skeleton
import proofs.«148635_j46308337386062_1_alg».proof.Proof.Gen.KernelIdeal.Points
import proofs.«148635_j46308337386062_1_alg».proof.Proof.LibSharedInputFrame
import Idealize.ShloMosaic.Lib.Pipeline.FrameBody
import Idealize.ShloMosaic.Lib.Ring
import Idealize.ShloMosaic.Lib.Tactic

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- The TensorCore's buffers when the region is entered: as launched, since the program is the region alone. -/
abbrev V (c : Dev nD) (b : Ref sig .tc) : Buf (Elt F) ((c : Thread nD τ).loc b) := m ((c : Thread nD τ).loc b)

theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at grid point `t`, read off its array as the region finds it: for the two
    input windows, 256 rows of the points. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output tile's buffer -/

abbrev rIn : Rect S256x64 := Rect.unit (s := S256x64) ![0, 0] S256x64.size inb_S256x64_S256x64_0_0
abbrev rOut : Rect S256x256 := Rect.unit (s := S256x256) ![0, 0] S256x256.size inb_S256x256_S256x256_0_0

/-- The tile the body stores, from the left and the right block of rows: its one whole-tile store. -/
def tile (x0 x1 : Vec F S256x64 .f32) : Vec F S256x256 .f32 :=
  View.canon [⟨rOut, k0_pay1 (View.ld x0 rIn) (View.ld x1 rIn)⟩]

/-- That store covers the whole buffer. -/
theorem tile_cover (p0 : Vec F S256x256 .f32) (y : S256x256.Idx) :
    ∃ pc ∈ ([⟨rOut, p0⟩] : List (View.Piece (Elt F) S256x256 .f32)), y ∈ pc.1.set :=
  View.cover_of_tiled [⟨rOut, p0⟩] S256x256.size (by rfl) y

/-! ## The body's triple -/

set_option maxHeartbeats 1000000 in
/-- On whole staging memrefs — the inputs' holding `x0` and `x1`, the output's anything — the body
    runs to a state where the inputs' hold what they held and the output's holds `tile x0 x1`. -/
theorem sound_kernel (c : Dev nD) (E : Set ℕ) (i : grid0.Coords)
    (arg2 : Memref sig .tc .vmem S256x64 .f32) (harg2 : arg2.IsWhole)
    (arg3 : Memref sig .tc .vmem S256x64 .f32) (harg3 : arg3.IsWhole)
    (arg4 : Memref sig .tc .vmem S256x256 .f32) (harg4 : arg4.IsWhole)
    (x0 x1 : Vec F S256x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__cdist_kernel i arg2 harg2 arg3 harg3 arg4 harg4) K := by
  simp only [cc0__cdist_kernel_eq_skeleton]; unfold cc0__cdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr
    · ipureintro; rfl
    · iexact H0
  isplitl [H1]
  · iexists f1; isplitr
    · ipureintro; rfl
    · iexact H1
  iexists _; isplitr
  swap
  · iexact H2
  ipureintro
  exact View.read_writes_eq_canon _ _ _ (tile_cover _)

/-! ## The proof data -/

/-- Per core: the arrays as the region finds them; after the body each input's buffer at its block
    of rows and the output's at the tile of the two blocks; between points only the core's scoped
    buffers that are no staging buffer; the points read at the two halves of the full share. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => tile (blk m c 0 t) (blk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_left (c : Dev nD) (t : Fin cfg0.N) : (dats m 0 c).after 0 t = blk m c 0 t := by dsimp only [dats]
theorem after_right (c : Dev nD) (t : Fin cfg0.N) : (dats m 0 c).after 1 t = blk m c 1 t := by dsimp only [dats]
theorem after_tile (c : Dev nD) (t : Fin cfg0.N) : (dats m 0 c).after 2 t = tile (blk m c 0 t) (blk m c 1 t) := by dsimp only [dats]

/-- The left window's buffer holds its block of rows at every point, fetched there or kept. -/
theorem before_left (c : Dev nD) (t : Fin cfg0.N) (d) : (dats m 0 c).before 0 t d = blk m c 0 t :=
  ((dats m 0 c).before_in_eq_fetched 0 rfl (fun _ => rfl) (fun _ _ _ => rfl)
    (fun t => by rw [after_left]; unfold Dat.blockOf blk; rw [A_eq]; try rfl) t d).trans
    (by unfold Dat.fetched Dat.blockOf blk; rw [A_eq]; try rfl)

/-- So does the right window's. -/
theorem before_right (c : Dev nD) (t : Fin cfg0.N) (d) : (dats m 0 c).before 1 t d = blk m c 1 t :=
  ((dats m 0 c).before_in_eq_fetched 1 rfl (fun _ => rfl) (fun _ _ _ => rfl)
    (fun t => by rw [after_right]; unfold Dat.blockOf blk; rw [A_eq]; try rfl) t d).trans
    (by unfold Dat.fetched Dat.blockOf blk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any grid point the inputs' buffers hold their blocks, so the body's triple applies; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_left, before_right]
  rw [show (dats m 0 c).Φ t.succ = (dats m 0 c).Φ t.castSucc from rfl,
    show (dats m 0 c).owesAt () t.succ = (dats m 0 c).owesAt () t.castSucc from rfl,
    after_left, after_right, after_tile]
  iintro ⟨HΦ, Ho, ⟨%d0, H0⟩, ⟨%d1, H1⟩, ⟨%d2, H2⟩⟩
  iapply (sound_kernel c Set.univ (grid0.coords t) _ _ _ _ _ _ (blk m c 0 t) (blk m c 1 t) _)
  isplitl [H0]
  · iexact H0
  isplitl [H1]
  · iexact H1
  isplitl [H2]
  · iexists _; iexact H2
  iintro ⟨H0, H1, H2⟩
  isplitl [HΦ]
  · iexact HΦ
  isplitl [Ho]
  · iexact Ho
  isplitl [H0]
  · iexact H0
  isplitl [H1]
  · iexact H1
  iexact H2

theorem body_obligation (c : Dev nD) : BodyObligation (dats (F := F) m 0 c) (defs₀ (F := F)) Variants.none () Set.univ := fun t => by
  rw [bigSep_W0, bigSep_W0]
  exact sound_body m c t

/-! ## Dealing the points between the two input windows -/

/-- At entry the buffer of the points, whole at the full share, is the left window's array at the
    left half share and the right window's at the right half; the output's buffer is its array. -/
theorem entry_split (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq [main_arg0, main_v0] (by decide) (by decide), bigSep_W0]
  rw [(arr_whole0 0).set_eq_univ, (arr_whole0 2).set_eq_univ]
  simp only [bigSepL_cons_cons, bigSepL_singleton]
  show iprop((((c.tc : Thread nD τ).loc main_arg0) ↦{fullShare} V m c main_arg0) ∗ (((c.tc : Thread nD τ).loc main_v0) ↦{fullShare} V m c main_v0)) ⊢ _
  iintro ⟨Ha, Hv⟩
  ihave Hs := (pointsTo_share (PosShare.mem_left_op_right fullShare)).1 $$ Ha
  icases Hs with ⟨Hl, Hr⟩
  isplitl [Hl]
  · iexact Hl
  isplitl [Hr]
  · iexact Hr
  iexact Hv

/-! ## The run and the frame -/

set_option backward.isDefEq.respectTransparency.types false in
/-- Every weakly fair execution terminates; each window's array then holds what the write-backs
    make of it, the points their entry contents. -/
theorem run_main : θ_run defs (onTc (τ := τ) (main (F := F))) (s₀ m ρ) (Pipeline.FramePost cfgs (dats m) 0 (V m)) :=
  Pipeline.θ_run_frame_sharedIn cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := entry_split m) (hΦ := fun _ _ => rfl)

/-- The frame: the points end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

end Cert.KernelIdeal.Dist

end
-- ==== Proof.LibColumnForms.lean ====
/-
  A column read at an index: the two layout steps of a row-wise reduction kept as a column.

  A reduction along the last axis of an [a, b] array gives a vector of length a. Kept "as a
  column" it is first cast to the shape [a, 1] and then either broadcast along the second axis to
  [a, c] — every entry of row i is the i-th reduced value — or transposed to the row [1, a] and
  broadcast along the first axis. The cast to a leading unit axis, the transpose of a matrix and the
  broadcast of one row are in the library; here are the cast to a TRAILING
  unit axis and the broadcast of one COLUMN, stated the same way over literal extents.
-/
import Idealize.ShloMosaic.Lib.ValueIdx
import Idealize.ShloMosaic.Lib.ValueLayout
import Idealize.ShloMosaic.Lib.Pipeline.Value

noncomputable section

namespace Idealize.ShloMosaic.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, c]` reads, at `(i, j)`, the operand's one column at `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnForms

end
-- ==== Proof.KernelIdealTile.lean ====
/-
  The tile the kernel stores, entry by entry.

  From a left block x0 and a right block x1 of 256 rows of 64 numbers each, the body's one store
  holds, at entry (p, q),

      sqrt( max( (Σ_k x0[p,k]² + Σ_k x1[q,k]²) − 2 · Σ_k x0[p,k]·x1[q,k] , 0 ) ).

  The three sums come from three operations that are not entrywise: the matrix product, which
  contracts the second axis of BOTH operands (so its entry (p, q) pairs row p of the left block
  with row q of the right block), and the two row sums of squares, one kept as a column and
  broadcast along the rows of the tile, the other transposed to a row and broadcast along its
  columns. Everything else in the body is entrywise and reads at an entry by unfolding.
-/
import proofs.«148635_j46308337386062_1_alg».proof.Proof.Gen.KernelIdeal.Skeleton
import proofs.«148635_j46308337386062_1_alg».proof.Proof.LibColumnForms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen
open Idealize.ShloMosaic Idealize.ShloMosaic.ValueIdx Idealize.ShloMosaic.ColumnForms
open scoped BigOperators

/-! ## The product: row p of the left block against row q of the right block -/

/-- The left operand's row coordinate is the entry's row. -/
theorem lhs_axis0 (j : S256x256.Idx) (k : dot_S256x64_S256x64_S256x256_1_1_0_0_n_n.contr.Idx) :
    (dot_S256x64_S256x64_S256x256_1_1_0_0_n_n.lhsIdx j k 0).val = (j 0).val := by
  unfold DotDims.lhsIdx
  rw [dif_neg (show ¬ (0 : Fin S256x64.rank) ∈ dot_S256x64_S256x64_S256x256_1_1_0_0_n_n.lhsBatch by decide),
    dif_pos (show (0 : Fin S256x64.rank) ∈ dot_S256x64_S256x64_S256x256_1_1_0_0_n_n.lhsNonContracting by decide)]
  rfl

/-- The left operand's column coordinate is the contraction's. -/
theorem lhs_axis1 (j : S256x256.Idx) (k : dot_S256x64_S256x64_S256x256_1_1_0_0_n_n.contr.Idx) :
    (dot_S256x64_S256x64_S256x256_1_1_0_0_n_n.lhsIdx j k 1).val = (k ⟨0, by decide⟩).val :=
  dot_S256x64_S256x64_S256x256_1_1_0_0_n_n.lhsIdx_val_of_single rfl j k

/-- The right operand's row coordinate is the entry's COLUMN: the right block is used transposed. -/
theorem rhs_axis0 (j : S256x256.Idx) (k : dot_S256x64_S256x64_S256x256_1_1_0_0_n_n.contr.Idx) :
    (dot_S256x64_S256x64_S256x256_1_1_0_0_n_n.rhsIdx j k 0).val = (j 1).val := by
  unfold DotDims.rhsIdx
  rw [dif_neg (show ¬ (0 : Fin S256x64.rank) ∈ dot_S256x64_S256x64_S256x256_1_1_0_0_n_n.rhsBatch by decide),
    dif_pos (show (0 : Fin S256x64.rank) ∈ dot_S256x64_S256x64_S256x256_1_1_0_0_n_n.rhsNonContracting by decide)]
  rfl

/-- The right operand's column coordinate is the contraction's. -/
theorem rhs_axis1 (j : S256x256.Idx) (k : dot_S256x64_S256x64_S256x256_1_1_0_0_n_n.contr.Idx) :
    (dot_S256x64_S256x64_S256x256_1_1_0_0_n_n.rhsIdx j k 1).val = (k ⟨0, by decide⟩).val :=
  dot_S256x64_S256x64_S256x256_1_1_0_0_n_n.rhsIdx_val_of_single rfl j k

/-- The product into the zero accumulator, at entry (p, q): the inner product of row p of the
    left block and row q of the right block. -/
theorem product_apply (x0 x1 : FVec Ideal S256x64 .f32) (p q : Fin 256) :
    matmul dot_S256x64_S256x64_S256x256_1_1_0_0_n_n none x0 x1 (constant (F := Ideal) S256x256 .f32 0x00000000#32) (ix2 p q)
      = ∑ k : Fin 64, x0 (ix2 p k) * x1 (ix2 q k) := by
  refine (Ideal.matmul_constant_zero_apply dot_S256x64_S256x64_S256x256_1_1_0_0_n_n none x0 x1 (ix2 p q)).trans ?_
  rw [← Equiv.sum_comp (contrEquiv1 dot_S256x64_S256x64_S256x256_1_1_0_0_n_n 64 rfl rfl).symm]
  refine Finset.sum_congr rfl fun k _ => ?_
  have hk := contrEquiv1_symm_val dot_S256x64_S256x64_S256x256_1_1_0_0_n_n 64 rfl rfl k
  have el : dot_S256x64_S256x64_S256x256_1_1_0_0_n_n.lhsIdx (ix2 p q)
      ((contrEquiv1 dot_S256x64_S256x64_S256x256_1_1_0_0_n_n 64 rfl rfl).symm k) = ix2 p k :=
    funext fun a => Fin.ext (by
      match a with
      | ⟨0, _⟩ => exact lhs_axis0 _ _
      | ⟨1, _⟩ => exact (lhs_axis1 _ _).trans hk)
  have er : dot_S256x64_S256x64_S256x256_1_1_0_0_n_n.rhsIdx (ix2 p q)
      ((contrEquiv1 dot_S256x64_S256x64_S256x256_1_1_0_0_n_n 64 rfl rfl).symm k) = ix2 q k :=
    funext fun a => Fin.ext (by
      match a with
      | ⟨0, _⟩ => exact rhs_axis0 _ _
      | ⟨1, _⟩ => exact (rhs_axis1 _ _).trans hk)
  rw [el, er]

/-! ## A row's sum -/

/-- The lane sum of a block, at row p. -/
theorem rowSum_apply (v : FVec Ideal S256x64 .f32) (p : Fin 256) :
    multiReduction (F := Ideal) .add [1] S256 v 0x00000000#32 reduces_S256x64_S256 (.inl rfl) rfl (ix1 p)
      = ∑ k : Fin 64, v (ix2 p k) := by
  refine (Ideal.multiReduction_add_single v 0x00000000#32 reduces_S256x64_S256 (.inl rfl) rfl (ix1 p)).trans ?_
  show ∑ k : Fin 64, v (reduces_S256x64_S256.lift (ix1 p) k) = _
  refine Finset.sum_congr rfl fun k _ => congrArg v (funext fun a => Fin.ext ?_)
  match a with
  | ⟨0, _⟩ => rfl
  | ⟨1, _⟩ => rfl

/-- The row sums of squares kept as a column and broadcast along the tile's rows: entry (p, q) is row p's. -/
theorem colSq_apply (x : FVec Ideal S256x64 .f32) (p q : Fin 256) :
    broadcastTo S256x256 (shapeCast S256x1 (multiReduction (F := Ideal) .add [1] S256 (mulf x x) 0x00000000#32 reduces_S256x64_S256 (.inl rfl) rfl)
        shapeCasts_S256_S256x1) broadcasts_S256x1_S256x256 (ix2 p q)
      = ∑ k : Fin 64, x (ix2 p k) * x (ix2 p k) :=
  (broadcastTo_a1_ac_apply _ broadcasts_S256x1_S256x256 p q).trans
    ((shapeCast_a_a1_apply _ shapeCasts_S256_S256x1 p 0).trans (rowSum_apply (mulf x x) p))

/-- The same column transposed to a row and broadcast along the tile's columns: entry (p, q) is row q's. -/
theorem rowSq_apply (x : FVec Ideal S256x64 .f32) (p q : Fin 256) :
    broadcastTo S256x256 (transpose S1x256 [1, 0] (shapeCast S256x1 (multiReduction (F := Ideal) .add [1] S256 (mulf x x) 0x00000000#32 reduces_S256x64_S256 (.inl rfl) rfl)
        shapeCasts_S256_S256x1) transposes_S256x1_p1_0_S1x256) broadcasts_S1x256_S256x256 (ix2 p q)
      = ∑ k : Fin 64, x (ix2 q k) * x (ix2 q k) :=
  (broadcastTo_1b_ab_apply _ broadcasts_S1x256_S256x256 p q).trans
    ((transpose_ix2_apply _ transposes_S256x1_p1_0_S1x256 (0 : Fin 1) q).trans
      ((shapeCast_a_a1_apply _ shapeCasts_S256_S256x1 q 0).trans (rowSum_apply (mulf x x) q)))

/-! ## The stored tile at an entry -/

/-- What the body stores, at entry (p, q) of the tile. -/
theorem pay_apply (x0 x1 : FVec Ideal S256x64 .f32) (p q : Fin 256) :
    k0_pay1 (F := Ideal) x0 x1 (ix2 p q)
      = Ideal.sqrt (max (((∑ k : Fin 64, x0 (ix2 p k) * x0 (ix2 p k)) + ∑ k : Fin 64, x1 (ix2 q k) * x1 (ix2 q k))
          - Ideal.ofBits .f32 0x40000000#32 * ∑ k : Fin 64, x0 (ix2 p k) * x1 (ix2 q k)) (Ideal.ofBits .f32 0x00000000#32)) :=
  congrArg Ideal.sqrt (congrArg (fun z => max z (Ideal.ofBits .f32 0x00000000#32))
    (congrArg₂ (fun s d => s - Ideal.ofBits .f32 0x40000000#32 * d)
      (congrArg₂ (fun s t => s + t) (colSq_apply x0 p q) (rowSq_apply x1 p q))
      (product_apply x0 x1 p q)))

end Cert.KernelIdeal.Tile

end
-- ==== Proof.DistanceLaw.lean ====
/-
  The two ways of writing a Euclidean distance, on the extended reals.

  For two real vectors a, b of the same length,

      ‖a‖² + ‖b‖² − 2·⟨a, b⟩  =  Σ_k (a_k − b_k)²,

  and the right side is a sum of squares, so it is not negative and taking the larger of it and
  zero changes nothing. Hence the square root of the clamped left side is the square root of the
  right side. On the extended reals the identity needs the entries to be REAL numbers (with an
  infinite entry the left side meets ∞ − ∞); it is stated here for extended reals that are images
  of reals, with the literal two and the literal zero as the words the programs carry.
-/
import Idealize.ShloMosaic.PureOps.Ideal
import Idealize.ShloMosaic.PureOps.Ideal.Laws

noncomputable section

namespace Cert.DistanceLaw

open Idealize.ShloMosaic
open scoped BigOperators

/-- The image of a finite sum of reals is the sum of the images. -/
theorem coe_sum {n : ℕ} (f : Fin n → ℝ) : ((∑ k, f k : ℝ) : EReal) = ∑ k, (f k : EReal) := by
  have h : ∀ s : Finset (Fin n), ((∑ k ∈ s, f k : ℝ) : EReal) = ∑ k ∈ s, (f k : EReal) := fun s => by
    induction s using Finset.induction_on with
    | empty => simp
    | insert a s ha ih => rw [Finset.sum_insert ha, Finset.sum_insert ha, EReal.coe_add, ih]
  exact h _

/-- The word of `2.0` denotes the real number two. -/
theorem ofBits_two_f32 : Ideal.ofBits .f32 0x40000000#32 = ((2 : ℝ) : EReal) := by
  simp [Ideal.ofBits, Ideal.ieee]
  norm_cast
  norm_num

/-- Over the reals: the expanded square. -/
theorem expand_real {n : ℕ} (a b : Fin n → ℝ) :
    (∑ k, a k * a k) + (∑ k, b k * b k) - 2 * (∑ k, a k * b k) = ∑ k, (a k - b k) * (a k - b k) := by
  rw [Finset.mul_sum, ← Finset.sum_add_distrib, ← Finset.sum_sub_distrib]
  exact Finset.sum_congr rfl fun k _ => by ring

/-- The square root of the clamped expanded form is the square root of the sum of squared
    differences, for real entries. -/
theorem sqrt_expanded_eq {n : ℕ} (a b : Fin n → ℝ) :
    Ideal.sqrt (max (((∑ k, (a k : EReal) * (a k : EReal)) + ∑ k, (b k : EReal) * (b k : EReal))
        - Ideal.ofBits .f32 0x40000000#32 * ∑ k, (a k : EReal) * (b k : EReal)) (Ideal.ofBits .f32 0x00000000#32))
      = Ideal.sqrt (Ideal.ofBits .f32 0x00000000#32 + ∑ k, ((a k : EReal) - (b k : EReal)) * ((a k : EReal) - (b k : EReal))) := by
  have eaa : (∑ k, (a k : EReal) * (a k : EReal)) = ((∑ k, a k * a k : ℝ) : EReal) := by
    rw [coe_sum]; exact Finset.sum_congr rfl fun k _ => (EReal.coe_mul _ _).symm
  have ebb : (∑ k, (b k : EReal) * (b k : EReal)) = ((∑ k, b k * b k : ℝ) : EReal) := by
    rw [coe_sum]; exact Finset.sum_congr rfl fun k _ => (EReal.coe_mul _ _).symm
  have eab : (∑ k, (a k : EReal) * (b k : EReal)) = ((∑ k, a k * b k : ℝ) : EReal) := by
    rw [coe_sum]; exact Finset.sum_congr rfl fun k _ => (EReal.coe_mul _ _).symm
  have edd : (∑ k, ((a k : EReal) - (b k : EReal)) * ((a k : EReal) - (b k : EReal)))
      = ((∑ k, (a k - b k) * (a k - b k) : ℝ) : EReal) := by
    rw [coe_sum]; exact Finset.sum_congr rfl fun k _ => by rw [EReal.coe_mul, EReal.coe_sub]
  have hnn : (0 : ℝ) ≤ ∑ k, (a k - b k) * (a k - b k) := Finset.sum_nonneg fun k _ => mul_self_nonneg _
  rw [eaa, ebb, eab, edd, ofBits_two_f32, Ideal.ofBits_zero_f32, zero_add, ← EReal.coe_mul, ← EReal.coe_add, ← EReal.coe_sub,
    expand_real, max_eq_left (EReal.coe_nonneg.mpr hnn)]

end Cert.DistanceLaw

end
-- ==== Proof.LibFiniteOps.lean ====
/-
  Extended reals that are real numbers, and the operations that keep them so.

  At the ideal float instance a float is an extended real. A vector is "all real" when each of its entries is
  the image of a real number; this file shows that each operation a host program or a kernel body applies
  entrywise, by re-indexing, or by a finite sum keeps that property, under the side conditions division and
  the reciprocal square root need (a nonzero, respectively positive, real operand). It also records the sign
  facts those side conditions are discharged from: sums of nonnegative reals are nonnegative, a square is
  nonnegative, a nonnegative real plus a positive one is positive. Last, a finiteness precondition (every entry's
  absolute value below positive infinity) is read back as: the vector is all real.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll

noncomputable section

namespace Idealize.ShloMosaic.FiniteOps

open Idealize.ShloMosaic
open scoped BigOperators

/-! ### One extended real -/

/-- An extended real that is (the image of) a real number. -/
def IsReal (a : EReal) : Prop := ∃ x : ℝ, a = (x : EReal)
/-- … that is a nonnegative real number. -/
def IsNonneg (a : EReal) : Prop := ∃ x : ℝ, 0 ≤ x ∧ a = (x : EReal)
/-- … that is a positive real number. -/
def IsPos (a : EReal) : Prop := ∃ x : ℝ, 0 < x ∧ a = (x : EReal)

theorem IsReal.coe (x : ℝ) : IsReal (x : EReal) := ⟨x, rfl⟩
theorem IsNonneg.isReal {a : EReal} (h : IsNonneg a) : IsReal a := let ⟨x, _, e⟩ := h; ⟨x, e⟩
theorem IsPos.isNonneg {a : EReal} (h : IsPos a) : IsNonneg a := let ⟨x, hx, e⟩ := h; ⟨x, hx.le, e⟩
theorem IsPos.isReal {a : EReal} (h : IsPos a) : IsReal a := h.isNonneg.isReal

/-- Being real is being neither infinity. -/
theorem isReal_iff {a : EReal} : IsReal a ↔ a ≠ ⊤ ∧ a ≠ ⊥ :=
  ⟨fun ⟨x, e⟩ => e ▸ ⟨EReal.coe_ne_top x, EReal.coe_ne_bot x⟩, fun ⟨h1, h2⟩ => ⟨a.toReal, (EReal.coe_toReal h1 h2).symm⟩⟩

/-- A nonnegative real is a real that is at least zero in the order of the extended reals. -/
theorem isNonneg_iff {a : EReal} : IsNonneg a ↔ IsReal a ∧ 0 ≤ a :=
  ⟨fun ⟨x, hx, e⟩ => ⟨⟨x, e⟩, e ▸ EReal.coe_nonneg.2 hx⟩, fun ⟨⟨x, e⟩, h⟩ => ⟨x, EReal.coe_nonneg.1 (e ▸ h), e⟩⟩

/-- A positive real is a real that is above zero in the order of the extended reals. -/
theorem isPos_iff {a : EReal} : IsPos a ↔ IsReal a ∧ 0 < a :=
  ⟨fun ⟨x, hx, e⟩ => ⟨⟨x, e⟩, e ▸ EReal.coe_pos.2 hx⟩, fun ⟨⟨x, e⟩, h⟩ => ⟨x, EReal.coe_pos.1 (e ▸ h), e⟩⟩

theorem IsPos.ne_zero {a : EReal} (h : IsPos a) : a ≠ 0 := by
  obtain ⟨x, hx, rfl⟩ := h; exact EReal.coe_ne_zero.2 hx.ne'

theorem isReal_zero : IsReal 0 := ⟨0, rfl⟩
theorem isNonneg_zero : IsNonneg 0 := ⟨0, le_rfl, rfl⟩
theorem isPos_one : IsPos 1 := ⟨1, one_pos, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.max {a b : EReal} (ha : IsReal a) (hb : IsReal b) : IsReal (Max.max a b) := by
  rcases le_total a b with h | h
  · rw [show Max.max a b = b from max_eq_right h]; exact hb
  · rw [show Max.max a b = a from max_eq_left h]; exact ha

theorem IsNonneg.add {a b : EReal} (ha : IsNonneg a) (hb : IsNonneg b) : IsNonneg (a + b) := by
  obtain ⟨x, hx, rfl⟩ := ha; obtain ⟨y, hy, rfl⟩ := hb; exact ⟨x + y, add_nonneg hx hy, (EReal.coe_add x y).symm⟩
theorem IsNonneg.mul {a b : EReal} (ha : IsNonneg a) (hb : IsNonneg b) : IsNonneg (a * b) := by
  obtain ⟨x, hx, rfl⟩ := ha; obtain ⟨y, hy, rfl⟩ := hb; exact ⟨x * y, mul_nonneg hx hy, (EReal.coe_mul x y).symm⟩
/-- A nonnegative real plus a positive real is positive. -/
theorem IsNonneg.add_pos {a b : EReal} (ha : IsNonneg a) (hb : IsPos b) : IsPos (a + b) := by
  obtain ⟨x, hx, rfl⟩ := ha; obtain ⟨y, hy, rfl⟩ := hb
  exact ⟨x + y, add_pos_of_nonneg_of_pos hx hy, (EReal.coe_add x y).symm⟩
theorem IsPos.mul {a b : EReal} (ha : IsPos a) (hb : IsPos b) : IsPos (a * b) := by
  obtain ⟨x, hx, rfl⟩ := ha; obtain ⟨y, hy, rfl⟩ := hb; exact ⟨x * y, mul_pos hx hy, (EReal.coe_mul x y).symm⟩
/-- The square of a real is a nonnegative real. -/
theorem IsReal.mul_self_nonneg {a : EReal} (ha : IsReal a) : IsNonneg (a * a) := by
  obtain ⟨x, rfl⟩ := ha; exact ⟨x * x, _root_.mul_self_nonneg x, (EReal.coe_mul x x).symm⟩
/-- The larger of a real and a nonnegative real is a nonnegative real (a rectifier's output). -/
theorem IsReal.max_nonneg {a b : EReal} (ha : IsReal a) (hb : IsNonneg b) : IsNonneg (Max.max a b) := by
  rcases le_total a b with h | h
  · rw [show Max.max a b = b from max_eq_right h]; exact hb
  · rw [show Max.max a b = a from max_eq_left h]
    obtain ⟨y, hy, rfl⟩ := hb
    exact isNonneg_iff.2 ⟨ha, le_trans (EReal.coe_nonneg.2 hy) h⟩

/-- A finite sum of reals is real. -/
theorem IsReal.sum {ι : Type} (s : Finset ι) (f : ι → EReal) (h : ∀ i ∈ s, IsReal (f i)) : IsReal (∑ i ∈ s, f i) :=
  Finset.sum_induction f IsReal (fun _ _ => IsReal.add) isReal_zero h
/-- A finite sum of nonnegative reals is a nonnegative real. -/
theorem IsNonneg.sum {ι : Type} (s : Finset ι) (f : ι → EReal) (h : ∀ i ∈ s, IsNonneg (f i)) : IsNonneg (∑ i ∈ s, f i) :=
  Finset.sum_induction f IsNonneg (fun _ _ => IsNonneg.add) isNonneg_zero h

/-- The quotient of a real by a nonzero real is real. -/
theorem IsReal.div {a b : EReal} (ha : IsReal a) (hb : IsReal b) (hb0 : b ≠ 0) : IsReal (Ideal.div a b) := by
  obtain ⟨y, rfl⟩ := hb
  rw [Ideal.div_coe (EReal.coe_ne_zero.1 hb0)]
  exact ha.mul (IsReal.coe _)
/-- The quotient of a nonnegative real by a positive real is a nonnegative real. -/
theorem IsNonneg.div_pos {a b : EReal} (ha : IsNonneg a) (hb : IsPos b) : IsNonneg (Ideal.div a b) := by
  obtain ⟨y, hy, rfl⟩ := hb
  rw [Ideal.div_coe hy.ne']
  exact ha.mul ⟨1 / y, by positivity, rfl⟩
/-- The quotient of a positive real by a positive real is a positive real. -/
theorem IsPos.div_pos {a b : EReal} (ha : IsPos a) (hb : IsPos b) : IsPos (Ideal.div a b) := by
  obtain ⟨y, hy, rfl⟩ := hb
  rw [Ideal.div_coe hy.ne']
  exact ha.mul ⟨1 / y, by positivity, rfl⟩

/-- The reciprocal square root of a positive real is a positive real. -/
theorem IsPos.rsqrt {a : EReal} (ha : IsPos a) : IsPos (Ideal.rsqrt a) := by
  obtain ⟨x, hx, rfl⟩ := ha
  rw [Ideal.rsqrt_coe, if_neg (not_lt.2 hx.le), if_neg hx.ne']
  exact ⟨(Real.sqrt x)⁻¹, inv_pos.2 (Real.sqrt_pos.2 hx), rfl⟩

/-! ### Vectors -/

variable {ι κ : Type}

/-- Every entry is a real number. -/
def AllReal (v : ι → EReal) : Prop := ∀ i, IsReal (v i)
/-- Every entry is a nonnegative real number. -/
def AllNonneg (v : ι → EReal) : Prop := ∀ i, IsNonneg (v i)
/-- Every entry is a positive real number. -/
def AllPos (v : ι → EReal) : Prop := ∀ i, IsPos (v i)

/-- The definition spelled out: each entry equals some real. -/
theorem allReal_def (v : ι → EReal) : AllReal v ↔ ∀ i, ∃ x : ℝ, v i = (x : EReal) := Iff.rfl
/-- The other spelling: no entry is an infinity. -/
theorem allReal_iff (v : ι → EReal) : AllReal v ↔ ∀ i, v i ≠ ⊤ ∧ v i ≠ ⊥ := forall_congr' fun _ => isReal_iff

theorem AllNonneg.allReal {v : ι → EReal} (h : AllNonneg v) : AllReal v := fun i => (h i).isReal
theorem AllPos.allNonneg {v : ι → EReal} (h : AllPos v) : AllNonneg v := fun i => (h i).isNonneg
theorem AllPos.allReal {v : ι → EReal} (h : AllPos v) : AllReal v := fun i => (h i).isReal

/-- A vector each of whose entries is an entry of an all-real vector is all real: every re-indexing. -/
theorem AllReal.comp {v : ι → EReal} (h : AllReal v) (f : κ → ι) : AllReal (fun j => v (f j)) := fun j => h (f j)
theorem AllNonneg.comp {v : ι → EReal} (h : AllNonneg v) (f : κ → ι) : AllNonneg (fun j => v (f j)) := fun j => h (f j)
theorem AllPos.comp {v : ι → EReal} (h : AllPos v) (f : κ → ι) : AllPos (fun j => v (f j)) := fun j => h (f j)

/-! ### Entrywise operations -/

section Ops
variable {s t : Shape} {φ : FTy}

theorem AllReal.addf {a b : FVec Ideal s φ} (ha : AllReal a) (hb : AllReal b) : AllReal (Idealize.ShloMosaic.addf a b) :=
  fun i => (ha i).add (hb i)
theorem AllReal.subf {a b : FVec Ideal s φ} (ha : AllReal a) (hb : AllReal b) : AllReal (Idealize.ShloMosaic.subf a b) :=
  fun i => (ha i).sub (hb i)
theorem AllReal.mulf {a b : FVec Ideal s φ} (ha : AllReal a) (hb : AllReal b) : AllReal (Idealize.ShloMosaic.mulf a b) :=
  fun i => (ha i).mul (hb i)
theorem AllReal.maximumf {a b : FVec Ideal s φ} (ha : AllReal a) (hb : AllReal b) :
    AllReal (Idealize.ShloMosaic.maximumf a b) :=
  fun i => (ha i).max (hb i)

/-- A sum of nonnegative reals, entrywise. -/
theorem AllNonneg.addf {a b : FVec Ideal s φ} (ha : AllNonneg a) (hb : AllNonneg b) :
    AllNonneg (Idealize.ShloMosaic.addf a b) :=
  fun i => (ha i).add (hb i)
/-- A nonnegative vector plus a positive one is positive: a variance plus its stabilising constant, a count plus one. -/
theorem AllNonneg.addf_pos {a b : FVec Ideal s φ} (ha : AllNonneg a) (hb : AllPos b) :
    AllPos (Idealize.ShloMosaic.addf a b) :=
  fun i => (ha i).add_pos (hb i)
/-- The entrywise square of a real vector is nonnegative. -/
theorem AllReal.mulf_self {a : FVec Ideal s φ} (ha : AllReal a) : AllNonneg (Idealize.ShloMosaic.mulf a a) :=
  fun i => (ha i).mul_self_nonneg
/-- A rectifier's output (the larger of a real and a nonnegative real, entrywise) is nonnegative. -/
theorem AllReal.maximumf_nonneg {a b : FVec Ideal s φ} (ha : AllReal a) (hb : AllNonneg b) :
    AllNonneg (Idealize.ShloMosaic.maximumf a b) :=
  fun i => (ha i).max_nonneg (hb i)

/-- The host's division by a vector of nonzero reals keeps a real vector real. -/
theorem AllReal.hostDivf {a b : FVec Ideal s φ} (ha : AllReal a) (hb : AllReal b) (hb0 : ∀ i, b i ≠ 0) :
    AllReal (Host.divf a b) :=
  fun i => (ha i).div (hb i) (hb0 i)
/-- … in particular by a vector of positive reals. -/
theorem AllReal.hostDivf_pos {a b : FVec Ideal s φ} (ha : AllReal a) (hb : AllPos b) : AllReal (Host.divf a b) :=
  ha.hostDivf hb.allReal fun i => (hb i).ne_zero
/-- A nonnegative vector divided by a positive one is nonnegative: a mean of squares. -/
theorem AllNonneg.hostDivf_pos {a b : FVec Ideal s φ} (ha : AllNonneg a) (hb : AllPos b) : AllNonneg (Host.divf a b) :=
  fun i => (ha i).div_pos (hb i)
/-- The same for the kernel's division. -/
theorem AllReal.divf {a b : FVec Ideal s φ} (ha : AllReal a) (hb : AllReal b) (hb0 : ∀ i, b i ≠ 0) :
    AllReal (Idealize.ShloMosaic.divf a b) :=
  fun i => (ha i).div (hb i) (hb0 i)

/-- The host's reciprocal square root of a vector of positive reals is a vector of positive reals. -/
theorem AllPos.hostRsqrt {a : FVec Ideal s φ} (ha : AllPos a) : AllPos (Host.rsqrt a) :=
  fun i => (ha i).rsqrt
/-- The same for the kernel's reciprocal square root. -/
theorem AllPos.rsqrt {a : FVec Ideal s φ} (ha : AllPos a) : AllPos (Idealize.ShloMosaic.rsqrt a) :=
  fun i => (ha i).rsqrt

/-- A selection between two real vectors is real, whatever the mask. -/
theorem AllReal.select {a b : FVec Ideal s φ} (c : IVec s 1) (ha : AllReal a) (hb : AllReal b) :
    AllReal (Idealize.ShloMosaic.select c a b) := fun i => by
  show IsReal (if c i = 1 then a i else b i)
  split
  · exact ha i
  · exact hb i

/-- A constant vector is real when its literal denotes a real. -/
theorem allReal_constant {b : BitVec φ.bits} (h : IsReal (Ideal.ofBits φ b)) : AllReal (constant (F := Ideal) s φ b) :=
  fun _ => h
theorem allNonneg_constant {b : BitVec φ.bits} (h : IsNonneg (Ideal.ofBits φ b)) : AllNonneg (constant (F := Ideal) s φ b) :=
  fun _ => h
theorem allPos_constant {b : BitVec φ.bits} (h : IsPos (Ideal.ofBits φ b)) : AllPos (constant (F := Ideal) s φ b) :=
  fun _ => h

end Ops

/-! ### Re-indexing operations: each entry of the result is an entry of an operand

Stated for any predicate on entries, then at the three used here. -/

section Layout
variable {s t : Shape} {α : Type} {w : Nat} (P : α → Prop)

theorem forall_broadcast (t : Shape) {x : α} (hx : P x) : ∀ j, P (broadcast t x j) := fun _ => hx
theorem forall_broadcastTo {x : s.Idx → α} (hx : ∀ k, P (x k)) (h : s.Broadcasts t) : ∀ j, P (broadcastTo t x h j) :=
  fun _ => hx _
theorem forall_broadcastInDim {x : s.Idx → α} (hx : ∀ k, P (x k)) (dims : Fin s.rank → Fin t.rank)
    (h : s.BroadcastsInDim t dims) : ∀ j, P (broadcastInDim t dims h x j) :=
  fun _ => hx _
theorem forall_shapeCast {x : s.Idx → α} (hx : ∀ k, P (x k)) (h : s.ShapeCasts t) : ∀ j, P (shapeCast t x h j) :=
  fun _ => hx _
theorem forall_extractStridedSlice {x : s.Idx → α} (hx : ∀ k, P (x k)) (off : Fin s.rank → Nat) (h : s.Slices off t) :
    ∀ j, P (extractStridedSlice t off x h j) :=
  fun _ => hx _
theorem forall_transpose {x : s.Idx → α} (hx : ∀ k, P (x k)) (perm : List (Fin s.rank)) (h : s.Transposes perm t) :
    ∀ j, P (transpose t perm x h j) :=
  fun _ => hx _
/-- A gather's entries are entries of the operand (the start indices are clamped into it). -/
theorem forall_gather {si : Shape} {x : s.Idx → α} (hx : ∀ k, P (x k)) (d : GatherDims s si t) (idx : IVec si w) :
    ∀ j, P (Host.gather d x idx j) :=
  fun _ => hx _
/-- A concatenation's entries are entries of its pieces. -/
theorem forall_concatenate (a : Fin t.rank) (xs : List ((s : Shape) × (s.Idx → α)))
    (hxs : ∀ p ∈ xs, ∀ k, P (p.2 k)) (h : Shape.Concatenates (xs.map (·.1)) t a) :
    ∀ j, P (concatenate t a xs h j) := by
  intro j
  unfold concatenate
  exact hxs _ (List.getElem_mem _) _

end Layout

section LayoutReal
variable {s t : Shape} {w : Nat}

theorem AllReal.broadcastTo {x : s.Idx → EReal} (hx : AllReal x) (h : s.Broadcasts t) :
    AllReal (Idealize.ShloMosaic.broadcastTo t x h) := forall_broadcastTo IsReal hx h
theorem AllReal.broadcastInDim {x : s.Idx → EReal} (hx : AllReal x) (dims : Fin s.rank → Fin t.rank)
    (h : s.BroadcastsInDim t dims) : AllReal (Idealize.ShloMosaic.broadcastInDim t dims h x) :=
  forall_broadcastInDim IsReal hx dims h
theorem AllReal.shapeCast {x : s.Idx → EReal} (hx : AllReal x) (h : s.ShapeCasts t) :
    AllReal (Idealize.ShloMosaic.shapeCast t x h) := forall_shapeCast IsReal hx h
theorem AllReal.extractStridedSlice {x : s.Idx → EReal} (hx : AllReal x) (off : Fin s.rank → Nat) (h : s.Slices off t) :
    AllReal (Idealize.ShloMosaic.extractStridedSlice t off x h) := forall_extractStridedSlice IsReal hx off h
theorem AllReal.gather {si : Shape} {x : s.Idx → EReal} (hx : AllReal x) (d : GatherDims s si t) (idx : IVec si w) :
    AllReal (Host.gather d x idx) := forall_gather IsReal hx d idx
theorem AllReal.concatenate (a : Fin t.rank) (xs : List ((s : Shape) × (s.Idx → EReal)))
    (hxs : ∀ p ∈ xs, AllReal p.2) (h : Shape.Concatenates (xs.map (·.1)) t a) :
    AllReal (Idealize.ShloMosaic.concatenate t a xs h) := forall_concatenate IsReal a xs hxs h
/-- The concatenation of two real vectors. -/
theorem AllReal.concatenate_pair {s₁ s₂ : Shape} (a : Fin t.rank) {x₁ : s₁.Idx → EReal} {x₂ : s₂.Idx → EReal}
    (h₁ : AllReal x₁) (h₂ : AllReal x₂) (h : Shape.Concatenates (([⟨s₁, x₁⟩, ⟨s₂, x₂⟩] : List ((s : Shape) × (s.Idx → EReal))).map (·.1)) t a) :
    AllReal (Idealize.ShloMosaic.concatenate t a [⟨s₁, x₁⟩, ⟨s₂, x₂⟩] h) :=
  AllReal.concatenate a _ (fun p hp => by
    rcases List.mem_cons.1 hp with rfl | hp
    · exact h₁
    · rcases List.mem_cons.1 hp with rfl | hp
      · exact h₂
      · exact absurd hp (List.not_mem_nil)) h

theorem AllNonneg.broadcastInDim {x : s.Idx → EReal} (hx : AllNonneg x) (dims : Fin s.rank → Fin t.rank)
    (h : s.BroadcastsInDim t dims) : AllNonneg (Idealize.ShloMosaic.broadcastInDim t dims h x) :=
  forall_broadcastInDim IsNonneg hx dims h
theorem AllPos.broadcastInDim {x : s.Idx → EReal} (hx : AllPos x) (dims : Fin s.rank → Fin t.rank)
    (h : s.BroadcastsInDim t dims) : AllPos (Idealize.ShloMosaic.broadcastInDim t dims h x) :=
  forall_broadcastInDim IsPos hx dims h
theorem AllNonneg.gather {si : Shape} {x : s.Idx → EReal} (hx : AllNonneg x) (d : GatherDims s si t) (idx : IVec si w) :
    AllNonneg (Host.gather d x idx) := forall_gather IsNonneg hx d idx
theorem AllPos.gather {si : Shape} {x : s.Idx → EReal} (hx : AllPos x) (d : GatherDims s si t) (idx : IVec si w) :
    AllPos (Host.gather d x idx) := forall_gather IsPos hx d idx

end LayoutReal

/-! ### Finite sums: the host's float reduction, scatter-add and dot product -/

section Sums
variable {s t u si su : Shape} {φ φ₁ φ₂ : FTy} {w : Nat}

/-- The host's float sum of a real vector from a real initial value is real. -/
theorem AllReal.hostReduceAdd {axes : List (Fin s.rank)} {x : FVec Ideal s φ} {init : u.Idx → Ideal φ}
    (hx : AllReal x) (hi : AllReal init) (h : s.ReducesTo axes t) (hu : 0 < u.numel) :
    AllReal (Host.reduceAdd x init h hu) := fun j => by
  show IsReal (Ideal.hostReduceAdd h x (init (Shape.Idx.first hu)) j)
  unfold Ideal.hostReduceAdd
  exact (hi _).add (IsReal.sum _ _ fun i _ => hx i)
/-- The host's float sum of a nonnegative vector from a nonnegative initial value is nonnegative. -/
theorem AllNonneg.hostReduceAdd {axes : List (Fin s.rank)} {x : FVec Ideal s φ} {init : u.Idx → Ideal φ}
    (hx : AllNonneg x) (hi : AllNonneg init) (h : s.ReducesTo axes t) (hu : 0 < u.numel) :
    AllNonneg (Host.reduceAdd x init h hu) := fun j => by
  show IsNonneg (Ideal.hostReduceAdd h x (init (Shape.Idx.first hu)) j)
  unfold Ideal.hostReduceAdd
  exact (hi _).add (IsNonneg.sum _ _ fun i _ => hx i)

/-- The host's accumulating scatter of real updates into a real operand is real: each entry is the operand's
    plus a finite sum of updates. -/
theorem AllReal.hostScatterAdd (d : ScatterDims s si su) {x : FVec Ideal s φ} {upd : FVec Ideal su φ} (idx : IVec si w)
    (hx : AllReal x) (hu : AllReal upd) : AllReal (Host.scatterAdd d x idx upd) := fun i => by
  show IsReal (Ideal.hostScatterAdd d x idx upd i)
  unfold Ideal.hostScatterAdd
  exact (hx i).add (IsReal.sum _ _ fun j _ => hu j)
/-- The host's accumulating scatter of nonnegative updates into a nonnegative operand (zeros, say) is nonnegative. -/
theorem AllNonneg.hostScatterAdd (d : ScatterDims s si su) {x : FVec Ideal s φ} {upd : FVec Ideal su φ} (idx : IVec si w)
    (hx : AllNonneg x) (hu : AllNonneg upd) : AllNonneg (Host.scatterAdd d x idx upd) := fun i => by
  show IsNonneg (Ideal.hostScatterAdd d x idx upd i)
  unfold Ideal.hostScatterAdd
  exact (hx i).add (IsNonneg.sum _ _ fun j _ => hu j)

/-- The host's dot product of two real operands is real: a finite sum of products. -/
theorem AllReal.hostDotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := fun j => by
  show IsReal (FloatOps.dotGeneral d prec .single lhs rhs j)
  rw [Ideal.dotGeneral_apply]
  exact IsReal.sum _ _ fun k _ => (hl _).mul (hr _)
/-- A matrix product into a real accumulator is real. -/
theorem AllReal.matmul {sl sr so : Shape} (d : DotDims sl sr so) (prec : Option ContractPrecision)
    {lhs : FVec Ideal sl φ₁} {rhs : FVec Ideal sr φ₂} {acc : FVec Ideal so .f32} (hl : AllReal lhs) (hr : AllReal rhs)
    (ha : AllReal acc) : AllReal (Idealize.ShloMosaic.matmul d prec lhs rhs acc) := fun j => by
  show IsReal (FloatOps.matmul d prec lhs rhs acc j)
  rw [Ideal.matmul_apply]
  exact (ha j).add (IsReal.sum _ _ fun k _ => (hl _).mul (hr _))

end Sums

/-! ### Literals -/

/-- The word of `0.0` is zero, `1.0` one. -/
theorem ofBits_one_f32 : Ideal.ofBits .f32 0x3F800000#32 = 1 := by
  simp [Ideal.ofBits, Ideal.ieee]
  norm_cast
  norm_num
theorem isReal_ofBits_zero_f32 : IsReal (Ideal.ofBits .f32 0x00000000#32) := by
  rw [Ideal.ofBits_zero_f32]; exact isReal_zero
theorem isNonneg_ofBits_zero_f32 : IsNonneg (Ideal.ofBits .f32 0x00000000#32) := by
  rw [Ideal.ofBits_zero_f32]; exact isNonneg_zero
theorem isPos_ofBits_one_f32 : IsPos (Ideal.ofBits .f32 0x3F800000#32) := by
  rw [ofBits_one_f32]; exact isPos_one

/-- The word `0x461C4000` (`1.0e4`) denotes a positive real. -/
theorem isPos_ofBits_1e4_f32 : IsPos (Ideal.ofBits .f32 0x461C4000#32) := by
  unfold IsPos
  simp [Ideal.ofBits, Ideal.ieee]
  exact ⟨10240000 * (2 ^ 10)⁻¹, by positivity, (EReal.coe_mul _ _).symm⟩
/-- The word `0x3727C5AC` (`9.99999974e-6`) denotes a positive real. -/
theorem isPos_ofBits_eps_f32 : IsPos (Ideal.ofBits .f32 0x3727C5AC#32) := by
  unfold IsPos
  simp [Ideal.ofBits, Ideal.ieee]
  exact ⟨10995116 * (2 ^ 40)⁻¹, by positivity, (EReal.coe_mul _ _).symm⟩
/-- The word `0x4A240E18` (`2687878.0`) denotes a positive real. -/
theorem isPos_ofBits_2687878_f32 : IsPos (Ideal.ofBits .f32 0x4A240E18#32) := by
  unfold IsPos
  simp [Ideal.ofBits, Ideal.ieee]
  exact ⟨10751512 * (2 ^ 2)⁻¹, by positivity, (EReal.coe_mul _ _).symm⟩

/-! ### A finiteness precondition read back -/

/-- The word of positive infinity denotes the top element. -/
theorem ofBits_inf_f32 : Ideal.ofBits .f32 0x7F800000#32 = ⊤ := by simp [Ideal.ofBits, Ideal.ieee]

/-- An extended real whose absolute value compares below positive infinity is a real number. -/
theorem isReal_of_abs_lt_inf {a : EReal}
    (h : Ideal.cmp .olt (max a (-a)) (Ideal.ofBits .f32 0x7F800000#32) = 1#1) : IsReal a := by
  rw [ofBits_inf_f32] at h
  have hlt : max a (-a) < ⊤ := by
    by_contra hn
    simp [Ideal.cmp, hn] at h
  rw [max_lt_iff] at hlt
  refine isReal_iff.2 ⟨ne_of_lt hlt.1, ?_⟩
  rintro rfl
  simp at hlt

/-- A shape of rank zero has one index. -/
instance subsingleton_idx_rank_zero : Subsingleton (⟨0, ![]⟩ : Shape).Idx := ⟨fun a b => funext fun d => d.elim0⟩

/-- One conjunct of a finiteness precondition read back: if "every entry's absolute value is below positive
    infinity", reduced by conjunction from true, came out true, the vector is all real. -/
theorem allReal_of_all_abs_lt_inf {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (j : (⟨0, ![]⟩ : Shape).Idx)
    (e : Host.reduce IntOp.andi
          (cmpf .olt (Host.absf x) (broadcastInDim s ![] hb (constant (F := Ideal) ⟨0, ![]⟩ .f32 0x7F800000#32)))
          (constantI ⟨0, ![]⟩ 1 1#1) hr hu j = 1#1) : AllReal x := fun i =>
  isReal_of_abs_lt_inf (Host.reduce_andi_all _ _ hr hu j e i)

end Idealize.ShloMosaic.FiniteOps

end
-- ==== Proof.DistanceSpec.lean ====
/-
  The matrix of pairwise distances of 2048 points in 64 dimensions, written two ways.

  `gramForm x` is what the kernel computes: at (i, j), the square root of
  max(‖x_i‖² + ‖x_j‖² − 2⟨x_i, x_j⟩, 0). `distForm x` is what the reference computes: the square
  root of Σ_k (x_i[k] − x_j[k])², the sum started from the literal zero. When every coordinate of
  every point is a real number the two are the same matrix, by the expansion of the square.
-/
import proofs.«148635_j46308337386062_1_alg».proof.Proof.DistanceLaw
import proofs.«148635_j46308337386062_1_alg».proof.Proof.LibFiniteOps
import Idealize.ShloMosaic.Lib.ValueIdx

noncomputable section

namespace Cert.DistanceSpec

open Idealize.ShloMosaic Idealize.ShloMosaic.ValueIdx Idealize.ShloMosaic.FiniteOps
open scoped BigOperators

/-- The points: 2048 rows of 64 coordinates. -/
abbrev Pts : Type := (⟨2, ![2048, 64]⟩ : Shape).Idx → EReal
/-- A 2048 × 2048 matrix. -/
abbrev Mat : Type := (⟨2, ![2048, 2048]⟩ : Shape).Idx → EReal

/-- Entry (i, j) by the expanded square, clamped at zero. -/
def gramAt (x : Pts) (i j : Fin 2048) : EReal :=
  Ideal.sqrt (max (((∑ k : Fin 64, x (ix2 i k) * x (ix2 i k)) + ∑ k : Fin 64, x (ix2 j k) * x (ix2 j k))
    - Ideal.ofBits .f32 0x40000000#32 * ∑ k : Fin 64, x (ix2 i k) * x (ix2 j k)) (Ideal.ofBits .f32 0x00000000#32))

/-- Entry (i, j) by the sum of squared differences. -/
def distAt (x : Pts) (i j : Fin 2048) : EReal :=
  Ideal.sqrt (Ideal.ofBits .f32 0x00000000#32 + ∑ k : Fin 64, (x (ix2 i k) - x (ix2 j k)) * (x (ix2 i k) - x (ix2 j k)))

def gramForm (x : Pts) : Mat := fun y => gramAt x (y 0) (y 1)
def distForm (x : Pts) : Mat := fun y => distAt x (y 0) (y 1)

/-- For real coordinates the two entries agree. -/
theorem gramAt_eq_distAt (x : Pts) (hx : AllReal x) (i j : Fin 2048) : gramAt x i j = distAt x i j := by
  choose r hr using hx
  unfold gramAt distAt
  simp only [hr]
  exact DistanceLaw.sqrt_expanded_eq (fun k => r (ix2 i k)) (fun k => r (ix2 j k))

/-- So the two matrices are one. -/
theorem gramForm_eq_distForm (x : Pts) (hx : AllReal x) : gramForm x = distForm x :=
  funext fun y => gramAt_eq_distAt x hx (y 0) (y 1)

end Cert.DistanceSpec

end
-- ==== Proof.KernelIdealValue.lean ====
/-
  What the kernel leaves in the distance matrix: the expanded-square form of the pairwise distances
  of the points, entry by entry.

  Grid point t = (i, j) writes back tile (i, j) of the result. The left block it was handed is
  rows 256·i … of the points and the right block rows 256·j …, so entry (p, q) of the tile pairs
  point 256·i + p with point 256·j + q: it is entry (256·i + p, 256·j + q) of the whole matrix.
  The 64 tiles cover the matrix, so after the run the matrix is that function everywhere.

  In order: the relations between the three index maps, decided once over the 64 grid points; the
  tile a point writes back, read against the whole-matrix function at an arbitrary point; every
  index in the tile found by dividing its coordinates by 256.
-/
import proofs.«148635_j46308337386062_1_alg».proof.Proof.KernelIdealFrame
import proofs.«148635_j46308337386062_1_alg».proof.Proof.KernelIdealTile
import proofs.«148635_j46308337386062_1_alg».proof.Proof.DistanceSpec
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Dist Cert.DistanceSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem zero_off : (![0, 0] : Fin 2 → Nat) = fun _ => 0 := funext fun a => by fin_cases a <;> rfl

/-- The index maps over the grid: the left window's block row is the tile's row, the right
    window's block row is the tile's column, both input windows take all 64 coordinates, and
    the tile indices stay below 8. -/
theorem index_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every tile is some grid point's. -/
theorem index_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- The points as the region finds them. -/
abbrev pts (c : Dev nD) : Pts := V m c main_arg0

/-- The left and the right block of rows at a grid point, at their literal type. -/
abbrev lrows (c : Dev nD) (t : Fin cfg0.N) : FVec Ideal S256x64 .f32 := blk m c 0 t
abbrev rrows (c : Dev nD) (t : Fin cfg0.N) : FVec Ideal S256x64 .f32 := blk m c 1 t

/-- Row p of the left block at point t is the point whose number is the row of entry (p, q) of tile t. -/
theorem lrows_apply (c : Dev nD) (t : Fin cfg0.N) (p q : Fin 256) (k : Fin 64) :
    lrows m c t (ix2 p k) = pts m c (ix2 ((((cfg0.win 2).blk t).view.emb (ix2 p q)) 0) k) := by
  obtain ⟨e0, e1, e2, e3, e4, e5⟩ := index_facts t
  show pts m c (((cfg0.win 0).blk t).view.emb (ix2 p k)) = _
  refine congrArg (pts m c) (funext fun a => Fin.ext ?_)
  match a with
  | ⟨0, _⟩ =>
    show win0_0.index t (0 : Fin 2) * 256 + 1 * p.val = win0_2.index t (0 : Fin 2) * 256 + 1 * p.val
    omega
  | ⟨1, _⟩ =>
    show win0_0.index t (1 : Fin 2) * 64 + 1 * k.val = k.val
    omega

/-- Row q of the right block at point t is the point whose number is the column of entry (p, q) of tile t. -/
theorem rrows_apply (c : Dev nD) (t : Fin cfg0.N) (p q : Fin 256) (k : Fin 64) :
    rrows m c t (ix2 q k) = pts m c (ix2 ((((cfg0.win 2).blk t).view.emb (ix2 p q)) 1) k) := by
  obtain ⟨e0, e1, e2, e3, e4, e5⟩ := index_facts t
  show pts m c (((cfg0.win 1).blk t).view.emb (ix2 q k)) = _
  refine congrArg (pts m c) (funext fun a => Fin.ext ?_)
  match a with
  | ⟨0, _⟩ =>
    show win0_1.index t (0 : Fin 2) * 256 + 1 * q.val = win0_2.index t (1 : Fin 2) * 256 + 1 * q.val
    omega
  | ⟨1, _⟩ =>
    show win0_1.index t (1 : Fin 2) * 64 + 1 * k.val = k.val
    omega

/-- What point t writes back is tile t of the expanded-square matrix of the points. -/
theorem written_eq (c : Dev nD) (t : Fin cfg0.N) :
    (dats m 0 c).flushed 2 t = ((cfg0.win 2).blk t).view.read (Elt Ideal) (gramForm (pts m c)) := by
  show (cfg0.win 2).cut (grid0.coords t) ((dats m 0 c).after 2 t) = _
  rw [after_tile]
  unfold tile
  rw [View.canon_unit_zero zero_off]
  simp only [View.ld_unit_zero (S := S256x64) zero_off]
  funext j
  obtain ⟨p, q, rfl⟩ : ∃ (p q : Fin 256), j = ix2 p q := ⟨j 0, j 1, eq_ix2 j⟩
  show k0_pay1 (F := Ideal) (lrows m c t) (rrows m c t) (ix2 p q) = gramForm (pts m c) (((cfg0.win 2).blk t).view.emb (ix2 p q))
  refine (Tile.pay_apply (lrows m c t) (rrows m c t) p q).trans ?_
  simp only [lrows_apply m c t p q, rrows_apply m c t p q]
  rfl

/-- An index of the matrix is in point t's tile iff each coordinate is in the tile's range. -/
theorem mem_tile (t : Fin cfg0.N) (i : S2048x2048.Idx) :
    i ∈ ((cfg0.win 2).blk t).view.set ↔ ∀ a : Fin 2, win0_2.index t a * S256x256.size a ≤ (i a).val ∧ (i a).val < win0_2.index t a * S256x256.size a + S256x256.size a := by
  show i ∈ ((View.whole main_v0).slice (win0_2.rect t)).set ↔ _
  rw [View.set_slice_whole, Rect.mem_set_unit]
  exact Iff.rfl

/-- Every index of the matrix is in some written-back tile. -/
theorem tiles_cover (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := index_onto ⟨(i 0).val / 256, by omega⟩ ⟨(i 1).val / 256, by omega⟩
  have q0 : win0_2.index t (0 : Fin 2) = (i 0).val / 256 := congrFun ht 0
  have q1 : win0_2.index t (1 : Fin 2) = (i 1).val / 256 := congrFun ht 1
  refine ⟨t, flush0_2 t, ?_⟩
  rw [mem_tile]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 256 ≤ (i 1).val ∧ (i 1).val < win0_2.index t (1 : Fin 2) * 256 + 256
    omega

/-- After the run the distance matrix is the expanded-square matrix of the points. -/
theorem final (c : Dev nD) : (dats m 0 c).arrAt 2 cfg0.N = gramForm (pts m c) :=
  (dats m 0 c).arrAt_eq_of_cover 2 (gramForm (pts m c)) (fun t _ => written_eq m c t) tiles_cover

/-- The run re-posted: the result is the expanded-square matrix of the launched points, and the
    points end as launched. -/
theorem run : θ_run defs (onTc (τ := τ) (main (F := Ideal))) ⟨m, fun _ => 0, ρ⟩ fun r => ∀ c : Dev nD,
      r.2.mem ((c.tc : Thread nD τ).loc main_v0) = gramForm (m ((c.tc : Thread nD τ).loc main_arg0))
      ∧ r.2.mem ((c.tc : Thread nD τ).loc main_arg0) = m ((c.tc : Thread nD τ).loc main_arg0) :=
  (θ_run defs _ _).mono (fun r h c => ⟨((h c).1 2).trans (final m c),
      ((h c).1 0).trans (((dats m 0 c).arrAt_in 0 rfl _).trans (A_eq m c 0))⟩)
    (run_main m ρ)

end Cert.KernelIdeal.Whole

end
-- ==== Proof.ReferenceValue.lean ====
/-
  What the reference computes: the matrix of pairwise distances in its plain form.

  The reference broadcasts the points along a new second axis and along a new first axis,
  subtracts, squares, sums over the 64 coordinates starting from the literal zero, and takes the
  square root. Read at entry (i, j), operation by operation, that is the square root of
  0 + Σ_k (x_i[k] − x_j[k])²: the left broadcast reads point i, the right one point j.
-/
import proofs.«148635_j46308337386062_1_alg».proof.Proof.Gen.ReferenceIdeal.Read
import proofs.«148635_j46308337386062_1_alg».proof.Proof.DistanceSpec
import Idealize.ShloMosaic.Lib.ValueIdx

noncomputable section

namespace Cert.ReferenceIdeal.Whole

open Cert.ReferenceIdeal Cert.ReferenceIdeal.Gen Cert.ReferenceIdeal.Read Cert.DistanceSpec
open Idealize.ShloMosaic Idealize.ShloMosaic.ValueIdx
open scoped BigOperators

/-- Through the two broadcasts on the left of the subtraction, entry (i, j, k) reads point i at k. -/
theorem left_index (i : S2048x2048.Idx) (k : Fin 64) :
    idx_main_v0 (idx_main_v2 (idx_main_v6 i k)) = ix2 (n0 := 2048) (n1 := 64) (i 0) k :=
  funext fun a => Fin.ext (by
    match a with
    | ⟨0, _⟩ => rfl
    | ⟨1, _⟩ => rfl)

/-- Through the two broadcasts on the right, it reads point j at k. -/
theorem right_index (i : S2048x2048.Idx) (k : Fin 64) :
    idx_main_v1 (idx_main_v3 (idx_main_v6 i k)) = ix2 (n0 := 2048) (n1 := 64) (i 1) k :=
  funext fun a => Fin.ext (by
    match a with
    | ⟨0, _⟩ => rfl
    | ⟨1, _⟩ => rfl)

/-- The reference's result is the distance matrix of its argument. -/
theorem result_eq (x : (⟨S2048x64, .f32⟩ : BufTy).Contents (Elt Ideal)) : val_main_v7 (F := Ideal) x = distForm x := by
  funext i
  rw [val_main_v7_apply, val_main_v6_apply]
  simp only [val_main_v5_apply, val_main_v4_apply, val_main_v2_apply, val_main_v3_apply, val_main_v0_apply, val_main_v1_apply,
    val_main_cst_apply, left_index, right_index, Ideal.hostUnary_sqrt_def, Ideal.ofBits_def, Ideal.subf_def, Ideal.mulf_def]
  rfl

end Cert.ReferenceIdeal.Whole

end
-- ==== Proof.lean ====
/-
  Pairwise Euclidean distances of 2048 points in 64 dimensions: a tiled kernel that expands the
  square against a reference that subtracts first.

  The kernel computes tile (i, j) of the distance matrix from rows 256·i … and rows 256·j … of the
  points as sqrt(max(‖x_p‖² + ‖x_q‖² − 2⟨x_p, x_q⟩, 0)); the reference computes
  sqrt(Σ_k (x_p[k] − x_q[k])²). Over the extended reals the two agree when every coordinate is a
  real number, which the precondition says: the expansion of the square is an identity of reals,
  the sum of squares is not negative so the clamp at zero is idle, and the square root is one
  function on both sides.

  The frames: the kernel reads the points through two input windows over ONE array, which is dealt
  between them by halves of the full share; nothing writes the points, and the program runs to the
  end at either reading of the floats. The reference is a straight line of host operations.
  The idealization rewrote nothing, so there is nothing for it to preserve.
-/
import proofs.«148635_j46308337386062_1_alg».proof.Defs
import proofs.«148635_j46308337386062_1_alg».proof.Proof.Gen.Kernel
import proofs.«148635_j46308337386062_1_alg».proof.Proof.Gen.KernelIdeal
import proofs.«148635_j46308337386062_1_alg».proof.Proof.Gen.ReferenceIdeal
import proofs.«148635_j46308337386062_1_alg».proof.Proof.Gen.ReferenceIdeal.Run
import proofs.«148635_j46308337386062_1_alg».proof.Proof.Gen.ReferenceIdeal.Read
import proofs.«148635_j46308337386062_1_alg».proof.Proof.Gen.Pre_finite_inputs
import proofs.«148635_j46308337386062_1_alg».proof.Proof.KernelFrame
import proofs.«148635_j46308337386062_1_alg».proof.Proof.KernelIdealFrame
import proofs.«148635_j46308337386062_1_alg».proof.Proof.KernelIdealValue
import proofs.«148635_j46308337386062_1_alg».proof.Proof.ReferenceValue
import proofs.«148635_j46308337386062_1_alg».proof.Proof.DistanceSpec
import proofs.«148635_j46308337386062_1_alg».proof.Proof.LibFiniteOps
import Idealize.ShloMosaic.Lib.ValueIdx
import Idealize.ShloMosaic.Adequacy
import Idealize.ShloMosaic.Init

noncomputable section

namespace Cert.Proof

open Idealize.ShloMosaic Idealize.ShloMosaic.TcCoe Idealize.SL.Sem Idealize.ShloMosaic.ValueIdx

/-- At the word level the kernel runs and leaves the points as launched. -/
theorem frame_kernel : Cert.frame_Kernel := fun m ρ _ => Cert.Kernel.Dist.frame m ρ

/-- So does its reading over the extended reals. -/
theorem frame_kernelIdeal : Cert.frame_KernelIdeal := fun m ρ _ => Cert.KernelIdeal.Dist.frame m ρ

/-- The reference runs and leaves the points as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- The precondition read back: every coordinate of every launched point is a real number. -/
theorem points_real (m : (ℓ : Loc Cert.KernelIdeal.nD Cert.KernelIdeal.τ Cert.KernelIdeal.sig) → Buf (Elt Ideal) ℓ)
    (hpre : Cert.Pre_KernelIdeal m) (c : Dev Cert.KernelIdeal.nD) :
    FiniteOps.AllReal (m ((c.tc : Thread Cert.KernelIdeal.nD Cert.KernelIdeal.τ).loc Cert.KernelIdeal.main_arg0)) :=
  FiniteOps.allReal_of_all_abs_lt_inf _ Cert.Pre_finite_inputs.Facts.bcast_S_S2048x64
    Cert.Pre_finite_inputs.Facts.reducesTo_S2048x64_S_d0_1 Cert.Pre_finite_inputs.Facts.h_S_ ix0 (congrFun (hpre c) ix0)

/-- From memories that agree on the points, both programs end with one matrix: the kernel's
    expanded-square form of the distances is the reference's plain form, the points being real. -/
theorem algebraic : Cert.algebraic_KernelIdeal_ReferenceIdeal := by
  intro m ρ m' ρ' hpre hagree
  refine ⟨fun c => Cert.DistanceSpec.gramForm (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.Whole.result_eq, hagree c]
  exact (Cert.DistanceSpec.gramForm_eq_distForm _ (points_real m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
